-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 57
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S_, .i32⟩
  | .hbm, ⟨15, _⟩ => ⟨S100000, .i32⟩
  | .hbm, ⟨16, _⟩ => ⟨S1600000x1, .i32⟩
  | .hbm, ⟨17, _⟩ => ⟨S100000, .i32⟩
  | .hbm, ⟨18, _⟩ => ⟨S100000, .f32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x128, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .bf16⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128, .f32⟩
  | .hbm, ⟨56, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x1 : S_.BroadcastsInDim S100000x1 (![] : Fin 0 → Fin S100000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LayerSpec.lean ====
/-
  One graph-convolution layer with mean aggregation, written two ways over the extended reals, and the law that
  joins them.

  For node p and output feature q, with y the node features, s the per-node sum of the neighbours' features, W_l, W_r
  the two weight matrices and b the bias:

    kernel arrangement     (Σₖ (s(p,k) · inv(p)) · W_l(k,q)) + (Σₖ y(p,k) · W_r(k,q)) + b(q)
    reference arrangement  (Σₖ (s(p,k) / dn(p)) · W_l(k,q)) + b(q) + Σₖ y(p,k) · W_r(k,q)

  where dn(p) is the clamped neighbour count max(cnt(p), 1) and inv(p) = 1 / dn(p).  When dn(p) is a nonzero real the
  quotient by dn(p) is the product with its reciprocal at every extended real (the infinities included), and
  1 / dn(p) is that reciprocal; the three summands are only reordered, and addition of extended reals is commutative
  and associative.  So the two arrangements agree entry by entry; no finiteness of y, s or the weights is needed.
-/
import Idealize.ShloMosaic.PureOps.Ideal.Laws
import Idealize.ShloMosaic.Lib.ValueIdx

noncomputable section

namespace Cert.Sage

open Idealize.ShloMosaic Idealize.ShloMosaic.ValueIdx

/-- Node features: 100000 nodes, 128 features each. -/
abbrev SNodes : Shape := ⟨2, ![100000, 128]⟩
/-- A weight matrix. -/
abbrev SW : Shape := ⟨2, ![128, 128]⟩
/-- A bias vector, and the same as a one-row matrix. -/
abbrev SB : Shape := ⟨1, ![128]⟩
abbrev SBrow : Shape := ⟨2, ![1, 128]⟩
/-- One number per node, as a vector and as a one-column matrix. -/
abbrev SDeg : Shape := ⟨1, ![100000]⟩
abbrev SDegCol : Shape := ⟨2, ![100000, 1]⟩

/-- Entry (p, q) of a layer in the kernel's arrangement: the aggregated row scaled by the reciprocal count, then the two
    products, then the bias. -/
def kLayerAt (y s : SNodes.Idx → EReal) (inv : SDegCol.Idx → EReal) (Wl : SW.Idx → EReal) (b : SBrow.Idx → EReal)
    (Wr : SW.Idx → EReal) (p : Fin 100000) (q : Fin 128) : EReal :=
  (∑ k : Fin 128, (s (ix2 p k) * inv (ix2 p 0)) * Wl (ix2 k q)) + (∑ k : Fin 128, y (ix2 p k) * Wr (ix2 k q)) + b (ix2 0 q)

/-- The layer in the kernel's arrangement, as one function of the arrays. -/
def kLayer (y s : SNodes.Idx → EReal) (inv : SDegCol.Idx → EReal) (Wl : SW.Idx → EReal) (b : SBrow.Idx → EReal)
    (Wr : SW.Idx → EReal) : SNodes.Idx → EReal :=
  fun i => kLayerAt y s inv Wl b Wr (i 0) (i 1)

/-- Entry (p, q) of a layer in the reference's arrangement: the aggregated row divided by the clamped count, its
    product, the bias, then the root product. -/
def rLayerAt (y s : SNodes.Idx → EReal) (dn : SDeg.Idx → EReal) (Wl : SW.Idx → EReal) (b : SB.Idx → EReal)
    (Wr : SW.Idx → EReal) (p : Fin 100000) (q : Fin 128) : EReal :=
  (∑ k : Fin 128, Ideal.div (s (ix2 p k)) (dn (ix1 p)) * Wl (ix2 k q)) + b (ix1 q) + ∑ k : Fin 128, y (ix2 p k) * Wr (ix2 k q)

/-- The layer in the reference's arrangement, as one function of the arrays. -/
def rLayer (y s : SNodes.Idx → EReal) (dn : SDeg.Idx → EReal) (Wl : SW.Idx → EReal) (b : SB.Idx → EReal)
    (Wr : SW.Idx → EReal) : SNodes.Idx → EReal :=
  fun i => rLayerAt y s dn Wl b Wr (i 0) (i 1)

/-- The rectifier, entry by entry. -/
def relu (y : SNodes.Idx → EReal) : SNodes.Idx → EReal := fun i => max (y i) 0

/-- Scaling by the reciprocal of a nonzero real is dividing by it, at every extended real. -/
theorem mul_inv_eq_div (a : EReal) {r : ℝ} (hr : r ≠ 0) : a * Ideal.div 1 (r : EReal) = Ideal.div a (r : EReal) := by
  rw [Ideal.div_coe hr, Ideal.div_coe hr, one_mul]

/-- The two arrangements of a layer agree when every clamped count is a nonzero real, the kernel's scale is its
    reciprocal, and the kernel's bias row is the bias vector. -/
theorem kLayer_eq_rLayer (y s : SNodes.Idx → EReal) (inv : SDegCol.Idx → EReal) (dn : SDeg.Idx → EReal)
    (Wl : SW.Idx → EReal) (brow : SBrow.Idx → EReal) (b : SB.Idx → EReal) (Wr : SW.Idx → EReal)
    (hd : ∀ p : Fin 100000, ∃ r : ℝ, r ≠ 0 ∧ dn (ix1 p) = (r : EReal) ∧ inv (ix2 p 0) = Ideal.div 1 (r : EReal))
    (hb : ∀ q : Fin 128, brow (ix2 0 q) = b (ix1 q)) :
    kLayer y s inv Wl brow Wr = rLayer y s dn Wl b Wr := by
  have hpq : ∀ (p : Fin 100000) (q : Fin 128), kLayerAt y s inv Wl brow Wr p q = rLayerAt y s dn Wl b Wr p q := by
    intro p q
    obtain ⟨r, hr, hdn, hinv⟩ := hd p
    unfold kLayerAt rLayerAt
    rw [hb, hdn, hinv, add_right_comm]
    congr 2
    exact Finset.sum_congr rfl fun k _ => by rw [mul_inv_eq_div _ hr]
  exact funext fun i => hpq (i 0) (i 1)

end Cert.Sage

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.LayerOneBlocks.lean ====
/-
  The first pallas_call's output array as one function of the arrays it reads.

  The call runs over 20 grid points; point t works on rows 5000·t … 5000·t + 4999 of the node arrays (the features y, the
  neighbour sums s, the reciprocal counts inv, each cut into blocks of 5000 rows) and on the whole of the two weight
  matrices and of the bias row.  Its body computes, for row p of the block and feature q,
      max((Σₖ (s(p,k) · inv(p)) · W_l(k,q)) + (Σₖ y(p,k) · W_r(k,q)) + b(q), 0)
  (the roundings to a narrower format on the way into the two products are the identity over the extended reals, and a
  product accumulated into zero is the plain sum over the contracted coordinate), and writes the block of 5000 rows
  back.  The 20 blocks tile the 100000 rows, so the output array ends as ONE function of the input arrays: the layer
  in the kernel's arrangement, rectified.  Stated for any contents of the buffers at the call's entry.
-/
import proofs.«410629_j36464272343628_3_alg».proof.Proof.Gen.KernelIdeal.Frame
import proofs.«410629_j36464272343628_3_alg».proof.Proof.LayerSpec
import proofs.«410629_j36464272343628_3_alg».proof.Proof.LibDotPlain
import Idealize.ShloMosaic.Lib.Pipeline.Value
import Idealize.ShloMosaic.Lib.ValueIdx
import Idealize.ShloMosaic.Lib.ValueLayout

set_option maxRecDepth 16384

noncomputable section

namespace Cert.KernelIdeal.LayerOne

open Cert.KernelIdeal Cert.KernelIdeal.Gen
open Idealize.ShloMosaic Idealize.ShloMosaic.TcCoe Idealize.ShloMosaic.ValueIdx Idealize.SL.Sem
open Idealize.ShloMosaic.Pipeline (Dat)

/-- A one-column array broadcast along its second axis reads, at (p, c), the column's entry p. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row p and feature q of a block, from the blocks it loads: the scaled aggregate's product, the
    root product and the bias, rectified. -/
theorem body_apply (s : Vec Ideal S5000x128 .f32) (inv : Vec Ideal S5000x1 .f32) (y : Vec Ideal S5000x128 .f32)
    (Wl Wr : Vec Ideal S128x128 .f32) (b : Vec Ideal S1x128 .f32) (p : Fin 5000) (q : Fin 128) :
    k0_pay1 s inv y Wl Wr b (ix2 p q)
      = max ((∑ k : Fin 128, (s (ix2 p k) * inv (ix2 p 0)) * Wl (ix2 k q))
          + (∑ k : Fin 128, y (ix2 p k) * Wr (ix2 k q)) + b (ix2 0 q)) 0 := by
  unfold k0_pay1
  simp only [shapeCast_self]
  have e1 := Cert.LibDot.mm_plain 5000 128 128
    (truncf .bf16 (mulf s (broadcastTo S5000x128 inv broadcasts_S5000x1_S5000x128)) bitsLt_bf16_f32)
    (truncf .bf16 Wl bitsLt_bf16_f32) p q
  have e2 := Cert.LibDot.mm_plain 5000 128 128 (truncf .bf16 y bitsLt_bf16_f32) (truncf .bf16 Wr bitsLt_bf16_f32) p q
  have e3 := broadcastTo_1b_ab_apply (a := 5000) b broadcasts_S1x128_S5000x128 p q
  refine (congrArg₂ max (congrArg₂ (· + ·) (congrArg₂ (· + ·) e1 e2) e3) Ideal.ofBits_zero_f32).trans ?_
  congr 3
  refine Finset.sum_congr rfl fun k _ => ?_
  show s (ix2 p k) * broadcastTo S5000x128 inv broadcasts_S5000x1_S5000x128 (ix2 p k) * Wl (ix2 k q) = _
  rw [broadcast_column_apply]

/-- The same over a block whose rows are rows r0 … r0 + 4999 of the arrays: the layer's entry at row r0 + p. -/
theorem block_apply (s : Vec Ideal S5000x128 .f32) (inv : Vec Ideal S5000x1 .f32) (y : Vec Ideal S5000x128 .f32)
    (Wl Wr : Vec Ideal S128x128 .f32) (b : Vec Ideal S1x128 .f32)
    (Ay As : S100000x128.Idx → EReal) (Ainv : S100000x1.Idx → EReal) (r0 : ℕ) (hr : r0 + 5000 ≤ 100000)
    (hy : ∀ (p : Fin 5000) (k : Fin 128), y (ix2 p k) = Ay (ix2 (⟨r0 + p.val, by have := p.isLt; omega⟩ : Fin 100000) k))
    (hs : ∀ (p : Fin 5000) (k : Fin 128), s (ix2 p k) = As (ix2 (⟨r0 + p.val, by have := p.isLt; omega⟩ : Fin 100000) k))
    (hinv : ∀ p : Fin 5000, inv (ix2 p 0) = Ainv (ix2 (⟨r0 + p.val, by have := p.isLt; omega⟩ : Fin 100000) 0))
    (p : Fin 5000) (q : Fin 128) :
    k0_pay1 s inv y Wl Wr b (ix2 p q)
      = Cert.Sage.relu (Cert.Sage.kLayer Ay As Ainv Wl b Wr) (ix2 (⟨r0 + p.val, by have := p.isLt; omega⟩ : Fin 100000) q) := by
  rw [body_apply]
  show _ = max (Cert.Sage.kLayerAt Ay As Ainv Wl b Wr (⟨r0 + p.val, _⟩ : Fin 100000) q) 0
  unfold Cert.Sage.kLayerAt
  simp only [hy, hs, hinv]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the arrays the call finds at its entry. -/
def layerOut (c : Dev nD) : S100000x128.Idx → EReal :=
  Cert.Sage.relu (Cert.Sage.kLayer (V c main_arg0) (V c main_v23) (V c main_v13) (V c main_arg2) (V c main_v24) (V c main_arg4))

/-- The block index maps over the grid: the three row-blocked inputs and the output sit at row block t, column block
    0; the weights and the bias at block (0, 0). -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block t of a row-blocked input is rows 5000·t … of its array; the weights' and the bias's one block is the array. -/
theorem blocks_read (c : Dev nD) (t : Fin cfg0.N) :
    (∀ (p : Fin 5000) (k : Fin 128), iblk0 V c 0 t (ix2 p k)
        = V c main_arg0 (ix2 (⟨5000 * t.val + p.val, by have := p.isLt; have : t.val < 20 := t.isLt; omega⟩ : Fin 100000) k))
    ∧ (∀ (p : Fin 5000) (k : Fin 128), iblk0 V c 1 t (ix2 p k)
        = V c main_v23 (ix2 (⟨5000 * t.val + p.val, by have := p.isLt; have : t.val < 20 := t.isLt; omega⟩ : Fin 100000) k))
    ∧ (∀ p : Fin 5000, iblk0 V c 2 t (ix2 p (0 : Fin 1))
        = V c main_v13 (ix2 (⟨5000 * t.val + p.val, by have := p.isLt; have : t.val < 20 := t.isLt; omega⟩ : Fin 100000) (0 : Fin 1)))
    ∧ iblk0 V c 3 t = V c main_arg2 ∧ iblk0 V c 4 t = V c main_v24 ∧ iblk0 V c 5 t = V c main_arg4 := by
  obtain ⟨e00, e01, e10, e11, e20, e21, e30, e31, e40, e41, e50, e51, e60, e61⟩ := index_maps t
  refine ⟨fun p k => ?_, fun p k => ?_, fun p => ?_, funext fun y => ?_, funext fun y => ?_, funext fun y => ?_⟩
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  · show V c main_v23 (((cfg0.win 1).blk t).view.emb (ix2 p k)) = _
    refine congrArg (V c main_v23) (funext fun a => Fin.ext ?_)
    match a with
    | ⟨0, _⟩ => show win0_1.index t (0 : Fin 2) * 5000 + 1 * p.val = 5000 * t.val + p.val; omega
    | ⟨1, _⟩ => show win0_1.index t (1 : Fin 2) * 128 + 1 * k.val = k.val; omega
  · show V c main_v13 (((cfg0.win 2).blk t).view.emb (ix2 p (0 : Fin 1))) = _
    refine congrArg (V c main_v13) (funext fun a => Fin.ext ?_)
    match a with
    | ⟨0, _⟩ => show win0_2.index t (0 : Fin 2) * 5000 + 1 * p.val = 5000 * t.val + p.val; omega
    | ⟨1, _⟩ => show win0_2.index t (1 : Fin 2) * 1 + 1 * 0 = 0; omega
  · show V c main_arg2 (((cfg0.win 3).blk t).view.emb y) = V c main_arg2 y
    refine congrArg (V c main_arg2) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · show V c main_v24 (((cfg0.win 4).blk t).view.emb y) = V c main_v24 y
    refine congrArg (V c main_v24) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show V c main_arg4 (((cfg0.win 5).blk t).view.emb y) = V c main_arg4 y
    refine congrArg (V c main_arg4) (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega

/-- What point t writes back is block t of the layer's output. -/
theorem flushed_eq (c : Dev nD) (t : Fin cfg0.N) :
    (dat0 V c).flushed 6 t = ((cfg0.win 6).blk t).view.read (Elt Ideal) (layerOut V c) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨hy, hs, hinv, hWl, hb, hWr⟩ := blocks_read V c t
  obtain ⟨e00, e01, e10, e11, e20, e21, e30, e31, e40, e41, e50, e51, e60, e61⟩ := index_maps t
  have ht : t.val < 20 := t.isLt
  rw [hWl, hb, hWr]
  funext j
  obtain ⟨p, q, rfl⟩ : ∃ (p : Fin 5000) (q : Fin 128), j = ix2 p q := ⟨j 0, j 1, eq_ix2 j⟩
  refine (block_apply (iblk0 V c 1 t) (iblk0 V c 2 t) (iblk0 V c 0 t) (V c main_arg2) (V c main_arg4) (V c main_v24)
    (V c main_arg0) (V c main_v23) (V c main_v13) (5000 * t.val) (by omega) hy hs hinv p q).trans ?_
  show layerOut V c _ = layerOut V c (((cfg0.win 6).blk t).view.emb (ix2 p q))
  refine congrArg (layerOut V c) (funext fun a => Fin.ext ?_)
  match a with
  | ⟨0, _⟩ => show 5000 * t.val + p.val = win0_6.index t (0 : Fin 2) * 5000 + 1 * p.val; omega
  | ⟨1, _⟩ => show q.val = win0_6.index t (1 : Fin 2) * 128 + 1 * q.val; omega

/-- An index of the output array is in point t's block iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v25).slice (win0_6.rect t)).set ↔ _
  rw [View.set_slice_whole, Rect.mem_set_unit]
  exact Iff.rfl

/-- Every row lies in the block of the point that is its quotient by 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 5000 < 20 := by omega
  obtain ⟨e00, e01, e10, e11, e20, e21, e30, e31, e40, e41, e50, e51, e60, e61⟩ := index_maps ⟨(i 0).val / 5000, hlt⟩
  have e60' : win0_6.index ⟨(i 0).val / 5000, hlt⟩ (0 : Fin 2) = (i 0).val / 5000 := e60
  refine ⟨⟨(i 0).val / 5000, hlt⟩, flush0_6 _, ?_⟩
  rw [mem_block]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    omega

/-- The output array after the call: the layer's output, whatever the buffers held at the call's entry. -/
theorem array_after (c : Dev nD) : (dat0 V c).arrAt 6 cfg0.N = layerOut V c :=
  (dat0 V c).arrAt_eq_of_cover 6 (layerOut V c) (fun t _ => flushed_eq V c t) covered

end Cert.KernelIdeal.LayerOne

end
-- ==== Proof.LayerTwoBlocks.lean ====
/-
  The second pallas_call's output array as one function of the arrays it reads.

  The call runs over 20 grid points; point t works on rows 5000·t … 5000·t + 4999 of the node arrays (the features y, the
  neighbour sums s, the reciprocal counts inv, each cut into blocks of 5000 rows) and on the whole of the two weight
  matrices and of the bias row.  Its body computes, for row p of the block and feature q,
      (Σₖ (s(p,k) · inv(p)) · W_l(k,q)) + (Σₖ y(p,k) · W_r(k,q)) + b(q)
  (the roundings to a narrower format on the way into the two products are the identity over the extended reals, and a
  product accumulated into zero is the plain sum over the contracted coordinate), and writes the block of 5000 rows
  back.  The 20 blocks tile the 100000 rows, so the output array ends as ONE function of the input arrays: the layer
  in the kernel's arrangement.  Stated for any contents of the buffers at the call's entry.
-/
import proofs.«410629_j36464272343628_3_alg».proof.Proof.Gen.KernelIdeal.Frame
import proofs.«410629_j36464272343628_3_alg».proof.Proof.LayerSpec
import proofs.«410629_j36464272343628_3_alg».proof.Proof.LibDotPlain
import Idealize.ShloMosaic.Lib.Pipeline.Value
import Idealize.ShloMosaic.Lib.ValueIdx
import Idealize.ShloMosaic.Lib.ValueLayout

set_option maxRecDepth 16384

noncomputable section

namespace Cert.KernelIdeal.LayerTwo

open Cert.KernelIdeal Cert.KernelIdeal.Gen
open Idealize.ShloMosaic Idealize.ShloMosaic.TcCoe Idealize.ShloMosaic.ValueIdx Idealize.SL.Sem
open Idealize.ShloMosaic.Pipeline (Dat)

/-- A one-column array broadcast along its second axis reads, at (p, c), the column's entry p. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's value at row p and feature q of a block, from the blocks it loads: the scaled aggregate's product, the
    root product and the bias. -/
theorem body_apply (s : Vec Ideal S5000x128 .f32) (inv : Vec Ideal S5000x1 .f32) (y : Vec Ideal S5000x128 .bf16)
    (Wl Wr : Vec Ideal S128x128 .f32) (b : Vec Ideal S1x128 .f32) (p : Fin 5000) (q : Fin 128) :
    k1_pay1 s inv y Wl Wr b (ix2 p q)
      = ((∑ k : Fin 128, (s (ix2 p k) * inv (ix2 p 0)) * Wl (ix2 k q))
          + (∑ k : Fin 128, y (ix2 p k) * Wr (ix2 k q)) + b (ix2 0 q)) := by
  unfold k1_pay1
  simp only [shapeCast_self]
  have e1 := Cert.LibDot.mm_plain 5000 128 128
    (truncf .bf16 (mulf s (broadcastTo S5000x128 inv broadcasts_S5000x1_S5000x128)) bitsLt_bf16_f32)
    (truncf .bf16 Wl bitsLt_bf16_f32) p q
  have e2 := Cert.LibDot.mm_plain 5000 128 128 (φ₁ := .bf16) (φ₂ := .bf16) y (truncf .bf16 Wr bitsLt_bf16_f32) p q
  have e3 := broadcastTo_1b_ab_apply (a := 5000) b broadcasts_S1x128_S5000x128 p q
  refine (congrArg₂ (· + ·) (congrArg₂ (· + ·) e1 e2) e3).trans ?_
  congr 2
  refine Finset.sum_congr rfl fun k _ => ?_
  show s (ix2 p k) * broadcastTo S5000x128 inv broadcasts_S5000x1_S5000x128 (ix2 p k) * Wl (ix2 k q) = _
  rw [broadcast_column_apply]

/-- The same over a block whose rows are rows r0 … r0 + 4999 of the arrays: the layer's entry at row r0 + p. -/
theorem block_apply (s : Vec Ideal S5000x128 .f32) (inv : Vec Ideal S5000x1 .f32) (y : Vec Ideal S5000x128 .bf16)
    (Wl Wr : Vec Ideal S128x128 .f32) (b : Vec Ideal S1x128 .f32)
    (Ay As : S100000x128.Idx → EReal) (Ainv : S100000x1.Idx → EReal) (r0 : ℕ) (hr : r0 + 5000 ≤ 100000)
    (hy : ∀ (p : Fin 5000) (k : Fin 128), y (ix2 p k) = Ay (ix2 (⟨r0 + p.val, by have := p.isLt; omega⟩ : Fin 100000) k))
    (hs : ∀ (p : Fin 5000) (k : Fin 128), s (ix2 p k) = As (ix2 (⟨r0 + p.val, by have := p.isLt; omega⟩ : Fin 100000) k))
    (hinv : ∀ p : Fin 5000, inv (ix2 p 0) = Ainv (ix2 (⟨r0 + p.val, by have := p.isLt; omega⟩ : Fin 100000) 0))
    (p : Fin 5000) (q : Fin 128) :
    k1_pay1 s inv y Wl Wr b (ix2 p q)
      = Cert.Sage.kLayer Ay As Ainv Wl b Wr (ix2 (⟨r0 + p.val, by have := p.isLt; omega⟩ : Fin 100000) q) := by
  rw [body_apply]
  show _ = (Cert.Sage.kLayerAt Ay As Ainv Wl b Wr (⟨r0 + p.val, _⟩ : Fin 100000) q)
  unfold Cert.Sage.kLayerAt
  simp only [hy, hs, hinv]

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The output array as one function of the arrays the call finds at its entry. -/
def layerOut (c : Dev nD) : S100000x128.Idx → EReal :=
  Cert.Sage.kLayer (V c main_v25) (V c main_v36) (V c main_v13) (V c main_arg5) (V c main_v37) (V c main_arg7)

/-- The block index maps over the grid: the three row-blocked inputs and the output sit at row block t, column block
    0; the weights and the bias at block (0, 0). -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block t of a row-blocked input is rows 5000·t … of its array; the weights' and the bias's one block is the array. -/
theorem blocks_read (c : Dev nD) (t : Fin cfg1.N) :
    (∀ (p : Fin 5000) (k : Fin 128), iblk1 V c 0 t (ix2 p k)
        = V c main_v25 (ix2 (⟨5000 * t.val + p.val, by have := p.isLt; have : t.val < 20 := t.isLt; omega⟩ : Fin 100000) k))
    ∧ (∀ (p : Fin 5000) (k : Fin 128), iblk1 V c 1 t (ix2 p k)
        = V c main_v36 (ix2 (⟨5000 * t.val + p.val, by have := p.isLt; have : t.val < 20 := t.isLt; omega⟩ : Fin 100000) k))
    ∧ (∀ p : Fin 5000, iblk1 V c 2 t (ix2 p (0 : Fin 1))
        = V c main_v13 (ix2 (⟨5000 * t.val + p.val, by have := p.isLt; have : t.val < 20 := t.isLt; omega⟩ : Fin 100000) (0 : Fin 1)))
    ∧ iblk1 V c 3 t = V c main_arg5 ∧ iblk1 V c 4 t = V c main_v37 ∧ iblk1 V c 5 t = V c main_arg7 := by
  obtain ⟨e00, e01, e10, e11, e20, e21, e30, e31, e40, e41, e50, e51, e60, e61⟩ := index_maps t
  refine ⟨fun p k => ?_, fun p k => ?_, fun p => ?_, funext fun y => ?_, funext fun y => ?_, funext fun y => ?_⟩
  · show V c main_v25 (((cfg1.win 0).blk t).view.emb (ix2 p k)) = _
    refine congrArg (V c main_v25) (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  · show V c main_v36 (((cfg1.win 1).blk t).view.emb (ix2 p k)) = _
    refine congrArg (V c main_v36) (funext fun a => Fin.ext ?_)
    match a with
    | ⟨0, _⟩ => show win1_1.index t (0 : Fin 2) * 5000 + 1 * p.val = 5000 * t.val + p.val; omega
    | ⟨1, _⟩ => show win1_1.index t (1 : Fin 2) * 128 + 1 * k.val = k.val; omega
  · show V c main_v13 (((cfg1.win 2).blk t).view.emb (ix2 p (0 : Fin 1))) = _
    refine congrArg (V c main_v13) (funext fun a => Fin.ext ?_)
    match a with
    | ⟨0, _⟩ => show win1_2.index t (0 : Fin 2) * 5000 + 1 * p.val = 5000 * t.val + p.val; omega
    | ⟨1, _⟩ => show win1_2.index t (1 : Fin 2) * 1 + 1 * 0 = 0; omega
  · show V c main_arg5 (((cfg1.win 3).blk t).view.emb y) = V c main_arg5 y
    refine congrArg (V c main_arg5) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · show V c main_v37 (((cfg1.win 4).blk t).view.emb y) = V c main_v37 y
    refine congrArg (V c main_v37) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show V c main_arg7 (((cfg1.win 5).blk t).view.emb y) = V c main_arg7 y
    refine congrArg (V c main_arg7) (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega

/-- What point t writes back is block t of the layer's output. -/
theorem flushed_eq (c : Dev nD) (t : Fin cfg1.N) :
    (dat1 V c).flushed 6 t = ((cfg1.win 6).blk t).view.read (Elt Ideal) (layerOut V c) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  obtain ⟨hy, hs, hinv, hWl, hb, hWr⟩ := blocks_read V c t
  obtain ⟨e00, e01, e10, e11, e20, e21, e30, e31, e40, e41, e50, e51, e60, e61⟩ := index_maps t
  have ht : t.val < 20 := t.isLt
  rw [hWl, hb, hWr]
  funext j
  obtain ⟨p, q, rfl⟩ : ∃ (p : Fin 5000) (q : Fin 128), j = ix2 p q := ⟨j 0, j 1, eq_ix2 j⟩
  refine (block_apply (iblk1 V c 1 t) (iblk1 V c 2 t) (iblk1 V c 0 t) (V c main_arg5) (V c main_arg7) (V c main_v37)
    (V c main_v25) (V c main_v36) (V c main_v13) (5000 * t.val) (by omega) hy hs hinv p q).trans ?_
  show layerOut V c _ = layerOut V c (((cfg1.win 6).blk t).view.emb (ix2 p q))
  refine congrArg (layerOut V c) (funext fun a => Fin.ext ?_)
  match a with
  | ⟨0, _⟩ => show 5000 * t.val + p.val = win1_6.index t (0 : Fin 2) * 5000 + 1 * p.val; omega
  | ⟨1, _⟩ => show q.val = win1_6.index t (1 : Fin 2) * 128 + 1 * q.val; omega

/-- An index of the output array is in point t's block iff each coordinate is in the block's range on its axis. -/
theorem mem_block (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v38).slice (win1_6.rect t)).set ↔ _
  rw [View.set_slice_whole, Rect.mem_set_unit]
  exact Iff.rfl

/-- Every row lies in the block of the point that is its quotient by 5000. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < 20 := by omega
  obtain ⟨e00, e01, e10, e11, e20, e21, e30, e31, e40, e41, e50, e51, e60, e61⟩ := index_maps ⟨(i 0).val / 5000, hlt⟩
  have e60' : win1_6.index ⟨(i 0).val / 5000, hlt⟩ (0 : Fin 2) = (i 0).val / 5000 := e60
  refine ⟨⟨(i 0).val / 5000, hlt⟩, flush1_6 _, ?_⟩
  rw [mem_block]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    omega

/-- The output array after the call: the layer's output, whatever the buffers held at the call's entry. -/
theorem array_after (c : Dev nD) : (dat1 V c).arrAt 6 cfg1.N = layerOut V c :=
  (dat1 V c).arrAt_eq_of_cover 6 (layerOut V c) (fun t _ => flushed_eq V c t) covered

end Cert.KernelIdeal.LayerTwo

end
-- ==== Proof.KernelStages.lean ====
/-
  The arrays the two pallas_calls find at their entries, as functions of the program's arguments.

  Before the first call the host program splits the edge list into its source row and its target row, wraps negative
  sources around (source + 100000 where the source is negative), counts for every node the edges that target it (an
  integer scatter-add of ones) and turns the clamped count into its reciprocal 1 / max(count, 1), sums the features of
  every node's neighbours (the rows of the feature array gathered at the sources, scatter-added at the targets), and
  lays the bias out as a one-row matrix.  Between the calls it gathers and sums the first call's output in the same
  way and lays the second bias out.  Nothing else is written, so each array a call reads is one of these terms of
  the arguments, and the second call's feature input is the first call's output.  Composing the two calls' values
  gives the program's result: the second layer in the kernel's arrangement applied to the rectified first layer.
-/
import proofs.«410629_j36464272343628_3_alg».proof.Proof.LayerOneBlocks
import proofs.«410629_j36464272343628_3_alg».proof.Proof.LayerTwoBlocks
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

/-- The edges' sources, as a vector. -/
def srcRow (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' targets, as a vector. -/
def dstRow (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The sources with the negative ones wrapped around, as a column of gather indices. -/
def srcCol (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- The targets as a column of scatter indices. -/
def dstCol (e : (⟨S2x1600000, .i32⟩ : BufTy).Contents (Elt Ideal)) : (⟨S1600000x1, .i32⟩ : BufTy).Contents (Elt Ideal) :=
  broadcastInDim S1600000x1 ![0] bcast_S1600000_S1600000x1_0 (dstRow e)

/-- The neighbours' feature sums: the rows of y gathered at the edges' sources and added at the edges' targets. -/
def agg (e : (⟨S2x1600000, .i32⟩ : BufTy).Contents (Elt Ideal)) (y : S100000x128.Idx → EReal) : S100000x128.Idx → EReal :=
  Host.scatterAdd (F := Ideal) (φ := .f32) scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 y (srcCol e))

/-- The same sums from a source vector and a target vector given by themselves. -/
def aggOf (src dst : (⟨S1600000, .i32⟩ : BufTy).Contents (Elt Ideal)) (y : S100000x128.Idx → EReal) : S100000x128.Idx → EReal :=
  Host.scatterAdd (F := Ideal) (φ := .f32) scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 y
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

theorem aggOf_rows (e : (⟨S2x1600000, .i32⟩ : BufTy).Contents (Elt Ideal)) (y : S100000x128.Idx → EReal) :
    aggOf (srcRow e) (dstRow e) y = agg e y := rfl

/-- For every node the number of edges that target it, counted in 32-bit integers. -/
def degWord (e : (⟨S2x1600000, .i32⟩ : BufTy).Contents (Elt Ideal)) : (⟨S100000, .i32⟩ : BufTy).Contents (Elt Ideal) :=
  Host.scatter scatter_S100000_S1600000x1_S1600000_n_0_0_1 IntOp.addi
    (broadcastInDim S100000 ![] bcast_S_S100000 (constantI S_ 32 0#32)) (dstCol e)
    (broadcastInDim S1600000 ![] bcast_S_S1600000 (constantI S_ 32 1#32))

/-- The reciprocal of the clamped count, 1 / max(count, 1), as a one-column matrix. -/
def inv (e : (⟨S2x1600000, .i32⟩ : BufTy).Contents (Elt Ideal)) : (⟨S100000x1, .f32⟩ : BufTy).Contents (Elt Ideal) :=
  Host.divf (F := Ideal) (φ := .f32) (broadcastInDim S100000x1 ![] bcast_S_S100000x1 (constant S_ .f32 0x3F800000#32))
    (maximumf (shapeCast _ (sitofp .f32 (degWord e)) shapeCasts_S100000_S100000x1)
      (broadcastInDim S100000x1 ![] bcast_S_S100000x1 (constant S_ .f32 0x3F800000#32)))

/-- A bias vector laid out as a one-row matrix. -/
def biasRow (b : (⟨S128, .f32⟩ : BufTy).Contents (Elt Ideal)) : (⟨S1x128, .f32⟩ : BufTy).Contents (Elt Ideal) :=
  shapeCast _ b shapeCasts_S128_S1x128

variable (m : (ℓ : Loc nD τ sig) → Buf (Elt Ideal) ℓ) (ρ : Dev nD → PrngReg)

/-! ## Before the first call -/

theorem first_src (c : Dev nD) : W1 m ρ c (Proc.devRef .tc main_v1) = srcRow (m ((c : Thread nD τ).loc main_arg1)) := by
  show StableHlo.after hostOps0 (W0 m ρ c) (Proc.devRef .tc main_v1) = _
  after_results_simp <;> rfl

theorem first_dst (c : Dev nD) : W1 m ρ c (Proc.devRef .tc main_v3) = dstRow (m ((c : Thread nD τ).loc main_arg1)) := by
  show StableHlo.after hostOps0 (W0 m ρ c) (Proc.devRef .tc main_v3) = _
  after_results_simp <;> rfl

theorem first_sums (c : Dev nD) :
    V1 m ρ c main_v23 = agg (m ((c : Thread nD τ).loc main_arg1)) (m ((c : Thread nD τ).loc main_arg0)) := by
  show StableHlo.after hostOps0 (W0 m ρ c) (Proc.devRef .tc main_v23) = _
  after_results_simp <;> rfl

theorem first_inv (c : Dev nD) : V1 m ρ c main_v13 = inv (m ((c : Thread nD τ).loc main_arg1)) := by
  show StableHlo.after hostOps0 (W0 m ρ c) (Proc.devRef .tc main_v13) = _
  after_results_simp <;> rfl

theorem first_bias (c : Dev nD) : V1 m ρ c main_v24 = biasRow (m ((c : Thread nD τ).loc main_arg3)) := by
  show StableHlo.after hostOps0 (W0 m ρ c) (Proc.devRef .tc main_v24) = _
  after_results_simp <;> rfl

theorem first_x (c : Dev nD) : V1 m ρ c main_arg0 = m ((c : Thread nD τ).loc main_arg0) := by
  show StableHlo.after hostOps0 (W0 m ρ c) (Proc.devRef .tc main_arg0) = _
  after_results_simp <;> rfl

theorem first_Wl (c : Dev nD) : V1 m ρ c main_arg2 = m ((c : Thread nD τ).loc main_arg2) := by
  show StableHlo.after hostOps0 (W0 m ρ c) (Proc.devRef .tc main_arg2) = _
  after_results_simp <;> rfl

theorem first_Wr (c : Dev nD) : V1 m ρ c main_arg4 = m ((c : Thread nD τ).loc main_arg4) := by
  show StableHlo.after hostOps0 (W0 m ρ c) (Proc.devRef .tc main_arg4) = _
  after_results_simp <;> rfl

/-! ## The first call's output, and what the host does between the calls -/

/-- The hidden features: the first layer in the kernel's arrangement, rectified. -/
def hidden (c : Dev nD) : S100000x128.Idx → EReal :=
  Cert.Sage.relu (Cert.Sage.kLayer (m ((c : Thread nD τ).loc main_arg0))
    (agg (m ((c : Thread nD τ).loc main_arg1)) (m ((c : Thread nD τ).loc main_arg0)))
    (inv (m ((c : Thread nD τ).loc main_arg1))) (m ((c : Thread nD τ).loc main_arg2))
    (biasRow (m ((c : Thread nD τ).loc main_arg3))) (m ((c : Thread nD τ).loc main_arg4)))

/-- After the first call its output array holds the hidden features. -/
theorem mid_hidden (c : Dev nD) : W2 m ρ c (Proc.devRef .tc main_v25) = hidden m c :=
  (W2_arr m ρ c 6).trans ((Cert.KernelIdeal.LayerOne.array_after (V1 m ρ) c).trans (by
    unfold Cert.KernelIdeal.LayerOne.layerOut hidden
    rw [first_x, first_sums, first_inv, first_Wl, first_bias, first_Wr]))

/-- The first call writes nothing else: the source and target vectors, the reciprocal counts and the arguments stay. -/
theorem mid_src (c : Dev nD) : W2 m ρ c (Proc.devRef .tc main_v1) = srcRow (m ((c : Thread nD τ).loc main_arg1)) :=
  (W2_of_ne m ρ c main_v1 (by decide)).trans (first_src m ρ c)

theorem mid_dst (c : Dev nD) : W2 m ρ c (Proc.devRef .tc main_v3) = dstRow (m ((c : Thread nD τ).loc main_arg1)) :=
  (W2_of_ne m ρ c main_v3 (by decide)).trans (first_dst m ρ c)

theorem mid_inv (c : Dev nD) : W2 m ρ c (Proc.devRef .tc main_v13) = inv (m ((c : Thread nD τ).loc main_arg1)) :=
  (W2_arr m ρ c 2).trans (((dat0 (V1 m ρ) c).arrAt_in 2 rfl _).trans ((A_eq0 (V1 m ρ) c 2).trans (first_inv m ρ c)))

theorem mid_Wl (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

theorem mid_b (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem mid_Wr (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-! ## Before the second call -/

theorem second_hidden (c : Dev nD) : V3 m ρ c main_v25 = hidden m c := by
  refine Eq.trans ?_ (mid_hidden m ρ c)
  show StableHlo.after hostOps1 (W2 m ρ c) (Proc.devRef .tc main_v25) = _
  after_results_simp <;> rfl

theorem second_sums (c : Dev nD) : V3 m ρ c main_v36 = agg (m ((c : Thread nD τ).loc main_arg1)) (hidden m c) := by
  have raw : StableHlo.after hostOps1 (W2 m ρ c) (Proc.devRef .tc main_v36)
      = aggOf (W2 m ρ c (Proc.devRef .tc main_v1)) (W2 m ρ c (Proc.devRef .tc main_v3)) (W2 m ρ c (Proc.devRef .tc main_v25)) := by
    after_results_simp <;> rfl
  refine raw.trans ?_
  rw [mid_src, mid_dst, mid_hidden, aggOf_rows]

theorem second_inv (c : Dev nD) : V3 m ρ c main_v13 = inv (m ((c : Thread nD τ).loc main_arg1)) := by
  refine Eq.trans ?_ (mid_inv m ρ c)
  show StableHlo.after hostOps1 (W2 m ρ c) (Proc.devRef .tc main_v13) = _
  after_results_simp <;> rfl

theorem second_bias (c : Dev nD) : V3 m ρ c main_v37 = biasRow (m ((c : Thread nD τ).loc main_arg6)) := by
  have raw : StableHlo.after hostOps1 (W2 m ρ c) (Proc.devRef .tc main_v37) = biasRow (W2 m ρ c (Proc.devRef .tc main_arg6)) := by
    after_results_simp <;> rfl
  refine raw.trans ?_
  rw [mid_b]

theorem second_Wl (c : Dev nD) : V3 m ρ c main_arg5 = m ((c : Thread nD τ).loc main_arg5) := by
  refine Eq.trans ?_ (mid_Wl m ρ c)
  show StableHlo.after hostOps1 (W2 m ρ c) (Proc.devRef .tc main_arg5) = _
  after_results_simp <;> rfl

theorem second_Wr (c : Dev nD) : V3 m ρ c main_arg7 = m ((c : Thread nD τ).loc main_arg7) := by
  refine Eq.trans ?_ (mid_Wr m ρ c)
  show StableHlo.after hostOps1 (W2 m ρ c) (Proc.devRef .tc main_arg7) = _
  after_results_simp <;> rfl

/-! ## The program's result -/

/-- The result buffer's final contents: the second layer in the kernel's arrangement over the hidden features. -/
theorem result_value (c : Dev nD) :
    W4 m ρ c (Proc.devRef .tc main_v38)
      = Cert.Sage.kLayer (hidden m c) (agg (m ((c : Thread nD τ).loc main_arg1)) (hidden m c))
          (inv (m ((c : Thread nD τ).loc main_arg1))) (m ((c : Thread nD τ).loc main_arg5))
          (biasRow (m ((c : Thread nD τ).loc main_arg6))) (m ((c : Thread nD τ).loc main_arg7)) :=
  (W4_arr m ρ c 6).trans ((Cert.KernelIdeal.LayerTwo.array_after (V3 m ρ) c).trans (by
    unfold Cert.KernelIdeal.LayerTwo.layerOut
    rw [second_hidden, second_sums, second_inv, second_Wl, second_bias, second_Wr]))

end Cert.KernelIdeal.Stages

end
-- ==== Proof.RefValue.lean ====
/-
  The reference program's value as two graph-convolution layers.

  The reference computes, for every node p and output feature q,

    layer(y)(p, q) = (Σₖ (s(p,k) / dn(p)) · W_l(k,q)) + b(q) + Σₖ y(p,k) · W_r(k,q)

  where s is the array of the neighbours' feature sums (the rows of y gathered at the edges' sources and added at the
  edges' targets) and dn(p) = max(count(p), 1) is the clamped number of edges arriving at p.  It applies the layer to
  the input features, rectifies the result entry by entry, and applies the layer again, with new weights, to the
  rectified features; both layers use the one edge list.

  Here the generated stage function of the reference's last operation is shown to be that composition.  The
  neighbours' sums and the clamped counts stay opaque functions of the edge list (`agg`, `dn`): nothing below looks
  inside the gather or the scatter, only at the fact that both layers build them from the same terms.  Everything else
  is read one entry at a time: a product of matrices is the sum over the contracted coordinate, a broadcast reads its
  operand at the coordinates it keeps, and the elementwise operations are the extended reals' own.
-/
import proofs.«410629_j36464272343628_3_alg».proof.Proof.Gen.ReferenceIdeal.Read
import proofs.«410629_j36464272343628_3_alg».proof.Proof.LayerSpec

noncomputable section

namespace Cert.ReferenceIdeal.RefValue

open Cert.ReferenceIdeal Cert.ReferenceIdeal.Gen Cert.ReferenceIdeal.Read Idealize.ShloMosaic Idealize.ShloMosaic.ValueIdx

/-- The neighbours' feature sums: the rows of y gathered at the edges' sources and added at the edges' targets. -/
def agg (e : (⟨S2x1600000, .i32⟩ : BufTy).Contents (Elt Ideal)) (y : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v11 (F := Ideal)) (val_main_v12 (F := Ideal) e)
    (Host.gather gather_S100000x128_S1600000x1_S1600000x128_1_0_n_n_0_1_1128 y (val_main_v9 (F := Ideal) e))
/-- The clamped in-degree max(count, 1) of every node. -/
def dn (e : (⟨S2x1600000, .i32⟩ : BufTy).Contents (Elt Ideal)) : (⟨S100000, .f32⟩ : BufTy).Contents (Elt Ideal) := val_main_v19 (F := Ideal) e

/-! ## Whole-array facts: the two layers share one edge list

The second layer recomputes the source column, the target column, the zero array the sums start from and the clamped
count through fresh buffers; each recomputation is the same term as the first layer's, so the second layer's
aggregation is `agg e` of the hidden features and its divisor is `dn e` again. -/

/-- The first layer aggregates the input features. -/
theorem v13_eq (x : (⟨S100000x128, .f32⟩ : BufTy).Contents (Elt Ideal)) (e : (⟨S2x1600000, .i32⟩ : BufTy).Contents (Elt Ideal)) : val_main_v13 (F := Ideal) x e = agg e x := rfl

/-- The second layer's source column is the first layer's. -/
theorem v35_eq (e : (⟨S2x1600000, .i32⟩ : BufTy).Contents (Elt Ideal)) : val_main_v35 (F := Ideal) e = val_main_v9 (F := Ideal) e := rfl
/-- The second layer's target column is the first layer's. -/
theorem v38_eq (e : (⟨S2x1600000, .i32⟩ : BufTy).Contents (Elt Ideal)) : val_main_v38 (F := Ideal) e = val_main_v12 (F := Ideal) e := rfl
/-- Both aggregations start from the same zero array. -/
theorem v37_eq : val_main_v37 (F := Ideal) = val_main_v11 (F := Ideal) := rfl
/-- The second layer's clamped count is the first layer's. -/
theorem v45_eq (e : (⟨S2x1600000, .i32⟩ : BufTy).Contents (Elt Ideal)) : val_main_v45 (F := Ideal) e = dn e := rfl
/-- The first layer's clamped count, by name. -/
theorem v19_eq (e : (⟨S2x1600000, .i32⟩ : BufTy).Contents (Elt Ideal)) : val_main_v19 (F := Ideal) e = dn e := rfl

/-- The second layer aggregates the hidden features over the same edges. -/
theorem v39_eq (x : (⟨S100000x128, .f32⟩ : BufTy).Contents (Elt Ideal)) (e : (⟨S2x1600000, .i32⟩ : BufTy).Contents (Elt Ideal)) (Wl1 : (⟨S128x128, .f32⟩ : BufTy).Contents (Elt Ideal)) (b1 : (⟨S128, .f32⟩ : BufTy).Contents (Elt Ideal)) (Wr1 : (⟨S128x128, .f32⟩ : BufTy).Contents (Elt Ideal)) :
    val_main_v39 (F := Ideal) x e Wl1 b1 Wr1 = agg e (val_main_v29 (F := Ideal) x e Wl1 b1 Wr1) := by
  unfold val_main_v39 val_main_v36 agg
  rw [v35_eq, v38_eq, v37_eq]

/-! ## The index functions of the generated reads, at coordinates -/

section Indices
variable (p : Fin 100000) (q k : Fin 128)

/-- A product's left operand is read at row p, column k … -/
theorem lidx23 : lidx_main_v23 (ix2 p q) k = ix2 p k := by
  funext a; match a with | ⟨0, _⟩ => rfl | ⟨1, _⟩ => rfl
/-- … and its right operand at row k, column q. -/
theorem ridx23 : ridx_main_v23 (ix2 p q) k = ix2 k q := by
  funext a; match a with | ⟨0, _⟩ => rfl | ⟨1, _⟩ => rfl
theorem lidx27 : lidx_main_v27 (ix2 p q) k = ix2 p k := by
  funext a; match a with | ⟨0, _⟩ => rfl | ⟨1, _⟩ => rfl
theorem ridx27 : ridx_main_v27 (ix2 p q) k = ix2 k q := by
  funext a; match a with | ⟨0, _⟩ => rfl | ⟨1, _⟩ => rfl
theorem lidx49 : lidx_main_v49 (ix2 p q) k = ix2 p k := by
  funext a; match a with | ⟨0, _⟩ => rfl | ⟨1, _⟩ => rfl
theorem ridx49 : ridx_main_v49 (ix2 p q) k = ix2 k q := by
  funext a; match a with | ⟨0, _⟩ => rfl | ⟨1, _⟩ => rfl
theorem lidx53 : lidx_main_v53 (ix2 p q) k = ix2 p k := by
  funext a; match a with | ⟨0, _⟩ => rfl | ⟨1, _⟩ => rfl
theorem ridx53 : ridx_main_v53 (ix2 p q) k = ix2 k q := by
  funext a; match a with | ⟨0, _⟩ => rfl | ⟨1, _⟩ => rfl

/-- The bias, broadcast along the rows, is read at the column q. -/
theorem idx2425 : idx_main_v24 (idx_main_v25 (ix2 p q)) = ix1 q := by
  funext a; match a with | ⟨0, _⟩ => rfl
theorem idx5051 : idx_main_v50 (idx_main_v51 (ix2 p q)) = ix1 q := by
  funext a; match a with | ⟨0, _⟩ => rfl
/-- The clamped count, broadcast along the columns, is read at the row p. -/
theorem idx2021 : idx_main_v20 (idx_main_v21 (ix2 p k)) = ix1 p := by
  funext a; match a with | ⟨0, _⟩ => rfl
theorem idx4647 : idx_main_v46 (idx_main_v47 (ix2 p k)) = ix1 p := by
  funext a; match a with | ⟨0, _⟩ => rfl

end Indices

/-! ## The first layer -/

/-- Entry (p, q) of the first layer before the rectifier. -/
theorem v28_at (x : (⟨S100000x128, .f32⟩ : BufTy).Contents (Elt Ideal)) (e : (⟨S2x1600000, .i32⟩ : BufTy).Contents (Elt Ideal)) (Wl1 : (⟨S128x128, .f32⟩ : BufTy).Contents (Elt Ideal)) (b1 : (⟨S128, .f32⟩ : BufTy).Contents (Elt Ideal)) (Wr1 : (⟨S128x128, .f32⟩ : BufTy).Contents (Elt Ideal)) (p : Fin 100000) (q : Fin 128) :
    val_main_v28 (F := Ideal) x e Wl1 b1 Wr1 (ix2 p q) = Cert.Sage.rLayerAt x (agg e x) (dn e) Wl1 b1 Wr1 p q := by
  rw [val_main_v28_apply, val_main_v26_apply, val_main_v23_apply, val_main_v25_apply, val_main_v24_apply,
    val_main_v27_apply, Ideal.addf_def, Ideal.addf_def, idx2425]
  unfold Cert.Sage.rLayerAt
  refine congrArg₂ (· + ·) (congrArg₂ (· + ·) (Finset.sum_congr rfl fun k _ => ?_) rfl) (Finset.sum_congr rfl fun k _ => ?_)
  · rw [lidx23, ridx23, val_main_v22_apply, val_main_v21_apply, val_main_v20_apply, Ideal.hostDivf_def, v13_eq, v19_eq,
      idx2021]
  · rw [lidx27, ridx27]

/-- The first layer before the rectifier, as an array. -/
theorem v28_eq (x : (⟨S100000x128, .f32⟩ : BufTy).Contents (Elt Ideal)) (e : (⟨S2x1600000, .i32⟩ : BufTy).Contents (Elt Ideal)) (Wl1 : (⟨S128x128, .f32⟩ : BufTy).Contents (Elt Ideal)) (b1 : (⟨S128, .f32⟩ : BufTy).Contents (Elt Ideal)) (Wr1 : (⟨S128x128, .f32⟩ : BufTy).Contents (Elt Ideal)) :
    val_main_v28 (F := Ideal) x e Wl1 b1 Wr1 = Cert.Sage.rLayer x (agg e x) (dn e) Wl1 b1 Wr1 := by
  funext i
  obtain ⟨p, q, rfl⟩ : ∃ (p : Fin 100000) (q : Fin 128), i = ix2 p q := ⟨i 0, i 1, eq_ix2 i⟩
  exact v28_at x e Wl1 b1 Wr1 p q

/-- The hidden features: the first layer, rectified. -/
theorem v29_eq (x : (⟨S100000x128, .f32⟩ : BufTy).Contents (Elt Ideal)) (e : (⟨S2x1600000, .i32⟩ : BufTy).Contents (Elt Ideal)) (Wl1 : (⟨S128x128, .f32⟩ : BufTy).Contents (Elt Ideal)) (b1 : (⟨S128, .f32⟩ : BufTy).Contents (Elt Ideal)) (Wr1 : (⟨S128x128, .f32⟩ : BufTy).Contents (Elt Ideal)) :
    val_main_v29 (F := Ideal) x e Wl1 b1 Wr1 = Cert.Sage.relu (Cert.Sage.rLayer x (agg e x) (dn e) Wl1 b1 Wr1) := by
  funext i
  rw [val_main_v29_apply, val_main_call0_v0_apply, val_main_call0_cst_apply, Ideal.maximumf_def, Ideal.ofBits_def,
    Ideal.ofBits_zero_f32, v28_eq]
  rfl

/-! ## The second layer, over the hidden features -/

/-- Entry (p, q) of the second layer: the same arrangement, with the hidden features in place of the input, their
    aggregation over the same edges, and the same clamped counts. -/
theorem v54_at (x : (⟨S100000x128, .f32⟩ : BufTy).Contents (Elt Ideal)) (e : (⟨S2x1600000, .i32⟩ : BufTy).Contents (Elt Ideal)) (Wl1 : (⟨S128x128, .f32⟩ : BufTy).Contents (Elt Ideal)) (b1 : (⟨S128, .f32⟩ : BufTy).Contents (Elt Ideal)) (Wr1 Wl2 : (⟨S128x128, .f32⟩ : BufTy).Contents (Elt Ideal)) (b2 : (⟨S128, .f32⟩ : BufTy).Contents (Elt Ideal)) (Wr2 : (⟨S128x128, .f32⟩ : BufTy).Contents (Elt Ideal)) (p : Fin 100000) (q : Fin 128) :
    val_main_v54 (F := Ideal) x e Wl1 b1 Wr1 Wl2 b2 Wr2 (ix2 p q)
      = Cert.Sage.rLayerAt (val_main_v29 (F := Ideal) x e Wl1 b1 Wr1) (agg e (val_main_v29 (F := Ideal) x e Wl1 b1 Wr1))
          (dn e) Wl2 b2 Wr2 p q := by
  rw [val_main_v54_apply, val_main_v52_apply, val_main_v49_apply, val_main_v51_apply, val_main_v50_apply,
    val_main_v53_apply, Ideal.addf_def, Ideal.addf_def, idx5051]
  unfold Cert.Sage.rLayerAt
  refine congrArg₂ (· + ·) (congrArg₂ (· + ·) (Finset.sum_congr rfl fun k _ => ?_) rfl) (Finset.sum_congr rfl fun k _ => ?_)
  · rw [lidx49, ridx49, val_main_v48_apply, val_main_v47_apply, val_main_v46_apply, Ideal.hostDivf_def, v39_eq, v45_eq,
      idx4647]
  · rw [lidx53, ridx53]

/-- The second layer, as an array. -/
theorem v54_eq (x : (⟨S100000x128, .f32⟩ : BufTy).Contents (Elt Ideal)) (e : (⟨S2x1600000, .i32⟩ : BufTy).Contents (Elt Ideal)) (Wl1 : (⟨S128x128, .f32⟩ : BufTy).Contents (Elt Ideal)) (b1 : (⟨S128, .f32⟩ : BufTy).Contents (Elt Ideal)) (Wr1 Wl2 : (⟨S128x128, .f32⟩ : BufTy).Contents (Elt Ideal)) (b2 : (⟨S128, .f32⟩ : BufTy).Contents (Elt Ideal)) (Wr2 : (⟨S128x128, .f32⟩ : BufTy).Contents (Elt Ideal)) :
    val_main_v54 (F := Ideal) x e Wl1 b1 Wr1 Wl2 b2 Wr2
      = Cert.Sage.rLayer (val_main_v29 (F := Ideal) x e Wl1 b1 Wr1) (agg e (val_main_v29 (F := Ideal) x e Wl1 b1 Wr1))
          (dn e) Wl2 b2 Wr2 := by
  funext i
  obtain ⟨p, q, rfl⟩ : ∃ (p : Fin 100000) (q : Fin 128), i = ix2 p q := ⟨i 0, i 1, eq_ix2 i⟩
  exact v54_at x e Wl1 b1 Wr1 Wl2 b2 Wr2 p q

/-! ## The reference's value -/

/-- The reference's result is the second layer applied to the rectified first layer, each with the neighbours' sums
    over the one edge list and the one array of clamped counts. -/
theorem ref_value (x : (⟨S100000x128, .f32⟩ : BufTy).Contents (Elt Ideal)) (e : (⟨S2x1600000, .i32⟩ : BufTy).Contents (Elt Ideal)) (Wl1 : (⟨S128x128, .f32⟩ : BufTy).Contents (Elt Ideal)) (b1 : (⟨S128, .f32⟩ : BufTy).Contents (Elt Ideal)) (Wr1 Wl2 : (⟨S128x128, .f32⟩ : BufTy).Contents (Elt Ideal)) (b2 : (⟨S128, .f32⟩ : BufTy).Contents (Elt Ideal)) (Wr2 : (⟨S128x128, .f32⟩ : BufTy).Contents (Elt Ideal)) :
    val_main_v54 (F := Ideal) x e Wl1 b1 Wr1 Wl2 b2 Wr2
      = Cert.Sage.rLayer (Cert.Sage.relu (Cert.Sage.rLayer x (agg e x) (dn e) Wl1 b1 Wr1))
          (agg e (Cert.Sage.relu (Cert.Sage.rLayer x (agg e x) (dn e) Wl1 b1 Wr1))) (dn e) Wl2 b2 Wr2 := by
  rw [v54_eq, v29_eq]

end Cert.ReferenceIdeal.RefValue

end
-- ==== Proof.LibCount.lean ====
/-
  Counting by scatter-add.

  Adding the constant one, once for every update element, onto an operand of zeros counts for each
  operand element the update elements whose result index is that element.  This file proves it for the
  32-bit integer scatter-add (the count taken modulo 2^32), proves the matching statement for the sum
  that the extended-real scatter-add is defined by (the count as a real number), and concludes that the
  signed reading of the integer result, seen as a real, is the extended-real result whenever there are
  fewer than 2^31 update elements, because then no count can reach the sign bit.
-/
import Idealize.ShloMosaic.PureOps.Ideal.Laws
import Mathlib.Data.Fintype.Basic
import Mathlib.Data.Fintype.Card
import Mathlib.Data.Multiset.Filter
import Mathlib.Data.EReal.Basic

open Idealize.ShloMosaic

namespace Cert.LibCount

/-- One left fold of the integer scatter step with every update equal to one: started from any
    accumulator `r`, the value at operand element `i` after running through a list `l` of update
    positions is `r i` plus the number of positions in `l` whose result index is `i`.  Induction on
    the list: a position landing on `i` adds one there, a position landing elsewhere or outside the
    operand leaves the value at `i` alone. -/
theorem foldl_addi_ones_apply {s si u : Shape} (d : ScatterDims s si u) {w : Nat} (idx : IVec si w)
    (i : s.Idx) (l : List (Fin u.numel)) (r : s.Idx → BitVec 32) :
    (l.foldl (fun r n =>
        match d.resultIdx? (u.rowMajor.symm n) idx with
        | some k => fun i' =>
            if i' = k then IntOp.addi (r k) ((fun _ : u.Idx => (1 : BitVec 32)) (u.rowMajor.symm n)) else r i'
        | none => r) r) i
      = r i + BitVec.ofNat 32 (l.countP fun n => d.resultIdx? (u.rowMajor.symm n) idx = some i) := by
  induction l generalizing r with
  | nil => simp
  | cons n l ih =>
    rw [List.foldl_cons, ih, List.countP_cons]
    cases h : d.resultIdx? (u.rowMajor.symm n) idx with
    | none => simp
    | some k =>
      by_cases hk : i = k
      · subst hk
        simp [IntOp.addi, BitVec.ofNat_add, BitVec.add_assoc, BitVec.add_comm]
      · have hk' : ¬ k = i := fun e => hk e.symm
        simp [hk, hk']

/-- The positions of a list `0, 1, …, n-1` that satisfy a predicate are as many as the elements of
    the finite set of all `k < n` satisfying it: the list enumerates that set without repetition. -/
theorem countP_finRange_eq_card {n : Nat} (p : Fin n → Prop) [DecidablePred p] :
    (List.finRange n).countP (fun k => decide (p k)) = (Finset.univ.filter p).card := by
  rw [Finset.card_def, Finset.filter_val, Fin.univ_def, ← Multiset.countP_eq_card_filter]
  exact (Multiset.coe_countP _ _).symm

/-- The update elements with result index `i` are as many as the row-major positions whose element
    has result index `i`: row-major numbering is a bijection between the two index sets. -/
theorem card_filter_rowMajor {s si u : Shape} (d : ScatterDims s si u) {w : Nat} (idx : IVec si w)
    (i : s.Idx) :
    (Finset.univ.filter fun n : Fin u.numel => d.resultIdx? (u.rowMajor.symm n) idx = some i).card
      = (Finset.univ.filter fun j : u.Idx => d.resultIdx? j idx = some i).card := by
  refine (Finset.card_equiv u.rowMajor ?_).symm
  intro j
  simp

/-- Scatter-adding the integer one, for every update element, onto an operand of zeros leaves at
    operand element `i` the number of update elements whose result index is `i`, as a 32-bit word
    (that is, modulo 2^32). -/
theorem scatter_addi_ones_eq_card {s si u : Shape} (d : ScatterDims s si u) {w : Nat} (idx : IVec si w) (i : s.Idx) :
    Host.scatter d IntOp.addi (fun _ : s.Idx => (0 : BitVec 32)) idx (fun _ : u.Idx => (1 : BitVec 32)) i
      = BitVec.ofNat 32 (Finset.univ.filter fun j : u.Idx => d.resultIdx? j idx = some i).card := by
  refine (foldl_addi_ones_apply d idx i (List.finRange u.numel) (fun _ => 0)).trans ?_
  rw [countP_finRange_eq_card, card_filter_rowMajor]
  exact BitVec.zero_add _

/-- At the extended reals, scatter-adding one for every update element onto an operand of zeros
    gives at operand element `i` the number of update elements whose result index is `i`, as a
    real number: the defining sum has every term equal to one, so it is the size of its index
    set, and the zero operand adds nothing. -/
theorem hostScatterAdd_ones_eq_card {s si u : Shape} (d : ScatterDims s si u) {w : Nat} (idx : IVec si w) (i : s.Idx) :
    Ideal.hostScatterAdd d (fun _ : s.Idx => (0 : EReal)) idx (fun _ : u.Idx => (1 : EReal)) i
      = (((Finset.univ.filter fun j : u.Idx => d.resultIdx? j idx = some i).card : ℝ) : EReal) := by
  unfold Ideal.hostScatterAdd
  rw [zero_add, Finset.sum_const, ← EReal.coe_one, ← EReal.coe_nsmul, nsmul_eq_mul, mul_one]

/-- A natural number below 2^31 written as a 32-bit word reads back, signed, as itself: it is
    below 2^32, so the word holds it exactly, and its top bit is clear, so the signed and unsigned
    readings agree. -/
theorem toInt_ofNat_of_lt {k : Nat} (hk : k < 2 ^ 31) : (BitVec.ofNat 32 k).toInt = (k : Int) := by
  have h1 : (BitVec.ofNat 32 k).toNat = k := by
    rw [BitVec.toNat_ofNat]
    exact Nat.mod_eq_of_lt (by omega)
  rw [BitVec.toInt_eq_toNat_of_lt (by rw [h1]; omega), h1]

/-- No operand element receives more updates than there are update elements. -/
theorem card_filter_le_numel {s si u : Shape} (d : ScatterDims s si u) {w : Nat} (idx : IVec si w)
    (i : s.Idx) :
    (Finset.univ.filter fun j : u.Idx => d.resultIdx? j idx = some i).card ≤ u.numel := by
  rw [← card_filter_rowMajor]
  exact (Finset.card_le_univ _).trans_eq (Fintype.card_fin _)

/-- With fewer than 2^31 update elements, the signed reading of the integer count of updates at
    operand element `i`, taken as a real number, is the extended-real scatter-add of ones onto
    zeros at `i`: both are the number of update elements with result index `i`, and that number
    is small enough to be read back from the 32-bit word unchanged. -/
theorem toInt_scatter_addi_ones {s si u : Shape} (d : ScatterDims s si u) {w : Nat} (idx : IVec si w) (hn : u.numel < 2 ^ 31) (i : s.Idx) :
    (((Host.scatter d IntOp.addi (fun _ : s.Idx => (0 : BitVec 32)) idx (fun _ : u.Idx => (1 : BitVec 32)) i).toInt : ℝ) : EReal)
      = Ideal.hostScatterAdd d (fun _ : s.Idx => (0 : EReal)) idx (fun _ : u.Idx => (1 : EReal)) i := by
  rw [scatter_addi_ones_eq_card, hostScatterAdd_ones_eq_card,
    toInt_ofNat_of_lt (lt_of_le_of_lt (card_filter_le_numel d idx i) hn), Int.cast_natCast]

end Cert.LibCount
-- ==== Proof.ClampedCount.lean ====
/-
  The clamped neighbour count, counted two ways.

  Scatter-adding ones counts, for each element, the updates that land on it.  Counted in reals the count is a natural
  number n as a real; counted in 32-bit integers and read back signed it is the same n as long as there are fewer than
  2^31 updates.  Clamped from below by 1 it is the real max(n, 1) ≥ 1, which is not zero, and the reciprocal the
  integer route takes of it is 1 / max(n, 1).  Also here: the pattern of 1.0, and a vector laid out as one column.
-/
import proofs.«410629_j36464272343628_3_alg».proof.Proof.LibCount
import Idealize.ShloMosaic.Lib.ValueLayout

set_option maxRecDepth 16384

noncomputable section

namespace Cert.Sage.Count

open Idealize.ShloMosaic Idealize.ShloMosaic.ValueIdx

/-- The pattern of 1.0 denotes the real 1. -/
theorem one_f32 : Ideal.ofBits .f32 0x3F800000#32 = 1 := by
  simp [Ideal.ofBits, Ideal.ieee, -EReal.coe_mul]; norm_num

/-- A vector cast to a one-column matrix reads, at (p, 0), the vector's entry p. -/
theorem column_cast_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The clamped count of the updates landing on an element, counted in reals and counted in integers: with fewer
    than 2^31 updates both are one real r ≥ 1, and the reciprocal taken of the integer count is 1 / r. -/
theorem clamped_count {s si u : Shape} (d : ScatterDims s si u) {w : Nat} (idx : IVec si w) (hn : u.numel < 2 ^ 31)
    (i : s.Idx) :
    ∃ r : ℝ, r ≠ 0
      ∧ max (Ideal.hostScatterAdd d (fun _ => Ideal.ofBits .f32 0x00000000#32) idx
            (fun _ => Ideal.ofBits .f32 0x3F800000#32) i) (Ideal.ofBits .f32 0x3F800000#32) = (r : EReal)
      ∧ Ideal.div (Ideal.ofBits .f32 0x3F800000#32)
          (max (((Host.scatter d IntOp.addi (fun _ => (0 : BitVec 32)) idx (fun _ => (1 : BitVec 32)) i).toInt : ℝ) : EReal)
            (Ideal.ofBits .f32 0x3F800000#32)) = Ideal.div 1 (r : EReal) := by
  rw [Ideal.ofBits_zero_f32, one_f32, Cert.LibCount.toInt_scatter_addi_ones d idx hn i,
    Cert.LibCount.hostScatterAdd_ones_eq_card]
  have hmax : max (((Finset.univ.filter fun j : u.Idx => d.resultIdx? j idx = some i).card : ℝ) : EReal) 1
      = ((max ((Finset.univ.filter fun j : u.Idx => d.resultIdx? j idx = some i).card : ℝ) 1 : ℝ) : EReal) := by
    rw [← EReal.coe_one]
    exact (EReal.coe_strictMono.monotone.map_max).symm
  refine ⟨max ((Finset.univ.filter fun j : u.Idx => d.resultIdx? j idx = some i).card : ℝ) 1, ?_, hmax, by rw [hmax]⟩
  have : (1 : ℝ) ≤ max ((Finset.univ.filter fun j : u.Idx => d.resultIdx? j idx = some i).card : ℝ) 1 := le_max_right _ _
  linarith

end Cert.Sage.Count

end
-- ==== Proof.Bridge.lean ====
/-
  The kernel's value and the reference's value are one function of the arguments.

  Both programs gather the neighbours' rows and add them up with the same operations over the same edge list, so
  their neighbour sums are one term.  They differ in how they count: the kernel counts the edges arriving at a node in
  32-bit integers and converts the count, the reference adds up ones as reals.  There are 1600000 edges, fewer than
  2^31, so the integer count never reaches the sign bit and both counts are the same natural number n(p); clamped, it
  is the real max(n(p), 1) ≥ 1, and the kernel's scale is 1 / max(n(p), 1).  The kernel's bias row is the bias vector
  laid out as a one-row matrix.  With that the law that joins the two arrangements of a layer applies to each of the
  two layers in turn, the rectifier between them being the same function on both sides.
-/
import proofs.«410629_j36464272343628_3_alg».proof.Proof.KernelStages
import proofs.«410629_j36464272343628_3_alg».proof.Proof.RefValue
import proofs.«410629_j36464272343628_3_alg».proof.Proof.ClampedCount

set_option maxRecDepth 16384

noncomputable section

namespace Cert.Bridge

open Idealize.ShloMosaic Idealize.ShloMosaic.ValueIdx
open Cert.ReferenceIdeal Cert.ReferenceIdeal.Gen Cert.ReferenceIdeal.Read

/-- The two programs' neighbour sums are one function. -/
theorem sums_agree (e : (⟨Cert.KernelIdeal.S2x1600000, .i32⟩ : BufTy).Contents (Elt Ideal)) :
    Cert.KernelIdeal.Stages.agg e = Cert.ReferenceIdeal.RefValue.agg e := rfl

/-- There are fewer than 2^31 edges. -/
theorem edges_lt : Cert.KernelIdeal.S1600000.numel < 2 ^ 31 := by decide

/-- The kernel's integer count is the scatter-add of ones onto zeros at the targets. -/
theorem degWord_eq (e : (⟨Cert.KernelIdeal.S2x1600000, .i32⟩ : BufTy).Contents (Elt Ideal)) :
    Cert.KernelIdeal.Stages.degWord e
      = Host.scatter Cert.KernelIdeal.scatter_S100000_S1600000x1_S1600000_n_0_0_1 IntOp.addi
          (fun _ => (0 : BitVec 32)) (Cert.KernelIdeal.Stages.dstCol e) (fun _ => (1 : BitVec 32)) := by
  have hz : (broadcastInDim Cert.KernelIdeal.S100000 ![] Cert.KernelIdeal.Facts₀.bcast_S_S100000
      (constantI Cert.KernelIdeal.S_ 32 0#32) : Cert.KernelIdeal.S100000.Idx → BitVec 32) = fun _ => (0 : BitVec 32) := rfl
  have ho : (broadcastInDim Cert.KernelIdeal.S1600000 ![] Cert.KernelIdeal.Facts₀.bcast_S_S1600000
      (constantI Cert.KernelIdeal.S_ 32 1#32) : Cert.KernelIdeal.S1600000.Idx → BitVec 32) = fun _ => (1 : BitVec 32) := rfl
  unfold Cert.KernelIdeal.Stages.degWord
  rw [hz, ho]

/-- The kernel's scale at node p: the reciprocal of the clamped signed reading of the integer count. -/
theorem inv_apply (e : (⟨Cert.KernelIdeal.S2x1600000, .i32⟩ : BufTy).Contents (Elt Ideal)) (p : Fin 100000) :
    Cert.KernelIdeal.Stages.inv e (ix2 p 0)
      = Ideal.div (Ideal.ofBits .f32 0x3F800000#32)
          (max ((((Host.scatter Cert.KernelIdeal.scatter_S100000_S1600000x1_S1600000_n_0_0_1 IntOp.addi
            (fun _ => (0 : BitVec 32)) (Cert.KernelIdeal.Stages.dstCol e) (fun _ => (1 : BitVec 32)) (ix1 p)).toInt : ℝ) : EReal))
            (Ideal.ofBits .f32 0x3F800000#32)) := by
  rw [← degWord_eq]
  show Ideal.div (Ideal.ofBits .f32 0x3F800000#32)
      (max (shapeCast Cert.KernelIdeal.S100000x1 (sitofp (F := Ideal) .f32 (Cert.KernelIdeal.Stages.degWord e))
        Cert.KernelIdeal.Facts₀.shapeCasts_S100000_S100000x1 (ix2 p 0)) (Ideal.ofBits .f32 0x3F800000#32)) = _
  rw [Cert.Sage.Count.column_cast_apply]
  rfl

/-- The reference's count is the real scatter-add of ones onto zeros at the same targets. -/
theorem count_eq (e : (⟨Cert.ReferenceIdeal.S2x1600000, .i32⟩ : BufTy).Contents (Elt Ideal)) :
    val_main_v17 (F := Ideal) e
      = Ideal.hostScatterAdd Cert.KernelIdeal.scatter_S100000_S1600000x1_S1600000_n_0_0_1
          (fun _ => Ideal.ofBits .f32 0x00000000#32) (Cert.KernelIdeal.Stages.dstCol e)
          (fun _ => Ideal.ofBits .f32 0x3F800000#32) := by
  have hd : Cert.ReferenceIdeal.scatter_S100000_S1600000x1_S1600000_n_0_0_1
      = Cert.KernelIdeal.scatter_S100000_S1600000x1_S1600000_n_0_0_1 := rfl
  have hidx : val_main_v16 (F := Ideal) e = Cert.KernelIdeal.Stages.dstCol e := rfl
  have hz : (val_main_v15 (F := Ideal) : Cert.ReferenceIdeal.S100000.Idx → EReal) = fun _ => Ideal.ofBits .f32 0x00000000#32 := rfl
  have ho : (val_main_v14 (F := Ideal) : Cert.ReferenceIdeal.S1600000.Idx → EReal) = fun _ => Ideal.ofBits .f32 0x3F800000#32 := rfl
  have h17 : val_main_v17 (F := Ideal) e
      = Ideal.hostScatterAdd Cert.ReferenceIdeal.scatter_S100000_S1600000x1_S1600000_n_0_0_1 (val_main_v15 (F := Ideal))
          (val_main_v16 (F := Ideal) e) (val_main_v14 (F := Ideal)) := rfl
  rw [h17, hd, hidx, hz, ho]

/-- The reference's clamped count at node p. -/
theorem dn_apply (e : (⟨Cert.ReferenceIdeal.S2x1600000, .i32⟩ : BufTy).Contents (Elt Ideal)) (p : Fin 100000) :
    Cert.ReferenceIdeal.RefValue.dn e (ix1 p)
      = max (Ideal.hostScatterAdd Cert.KernelIdeal.scatter_S100000_S1600000x1_S1600000_n_0_0_1
          (fun _ => Ideal.ofBits .f32 0x00000000#32) (Cert.KernelIdeal.Stages.dstCol e)
          (fun _ => Ideal.ofBits .f32 0x3F800000#32) (ix1 p)) (Ideal.ofBits .f32 0x3F800000#32) := by
  have h18 : val_main_v18 (F := Ideal) (ix1 p) = Ideal.ofBits .f32 0x3F800000#32 := rfl
  have h19 : Cert.ReferenceIdeal.RefValue.dn e
      = maximumf (F := Ideal) (s := Cert.ReferenceIdeal.S100000) (φ := .f32) (val_main_v17 (F := Ideal) e) (val_main_v18 (F := Ideal)) := rfl
  rw [h19, maximumf_apply, count_eq, h18]

/-- The reference's clamped count at node p is a real r ≥ 1 and the kernel's scale there is 1 / r. -/
theorem counts_agree (e : (⟨Cert.KernelIdeal.S2x1600000, .i32⟩ : BufTy).Contents (Elt Ideal)) (p : Fin 100000) :
    ∃ r : ℝ, r ≠ 0 ∧ Cert.ReferenceIdeal.RefValue.dn e (ix1 p) = (r : EReal)
      ∧ Cert.KernelIdeal.Stages.inv e (ix2 p 0) = Ideal.div 1 (r : EReal) := by
  obtain ⟨r, hr, h1, h2⟩ := Cert.Sage.Count.clamped_count Cert.KernelIdeal.scatter_S100000_S1600000x1_S1600000_n_0_0_1
    (Cert.KernelIdeal.Stages.dstCol e) edges_lt (ix1 p)
  exact ⟨r, hr, (dn_apply e p).trans h1, (inv_apply e p).trans h2⟩

/-- The kernel's bias row is the bias vector. -/
theorem bias_apply (b : Cert.Sage.SB.Idx → EReal) (q : Fin 128) :
    Cert.KernelIdeal.Stages.biasRow b (ix2 0 q) = b (ix1 q) :=
  shapeCast_a_1a_apply b Cert.KernelIdeal.Facts₀.shapeCasts_S128_S1x128 0 q

/-- One layer: the kernel's arrangement over the kernel's terms is the reference's arrangement over the reference's. -/
theorem layers_agree (e : (⟨Cert.KernelIdeal.S2x1600000, .i32⟩ : BufTy).Contents (Elt Ideal))
    (y : Cert.Sage.SNodes.Idx → EReal) (Wl : Cert.Sage.SW.Idx → EReal) (b : Cert.Sage.SB.Idx → EReal)
    (Wr : Cert.Sage.SW.Idx → EReal) :
    Cert.Sage.kLayer y (Cert.KernelIdeal.Stages.agg e y) (Cert.KernelIdeal.Stages.inv e) Wl
        (Cert.KernelIdeal.Stages.biasRow b) Wr
      = Cert.Sage.rLayer y (Cert.ReferenceIdeal.RefValue.agg e y) (Cert.ReferenceIdeal.RefValue.dn e) Wl b Wr := by
  rw [sums_agree]
  exact Cert.Sage.kLayer_eq_rLayer _ _ _ _ _ _ _ _ (counts_agree e) (bias_apply b)

/-- The kernel's result term is the reference's. -/
theorem values_agree (x : Cert.Sage.SNodes.Idx → EReal) (e : (⟨Cert.KernelIdeal.S2x1600000, .i32⟩ : BufTy).Contents (Elt Ideal))
    (Wl1 : Cert.Sage.SW.Idx → EReal) (b1 : Cert.Sage.SB.Idx → EReal) (Wr1 Wl2 : Cert.Sage.SW.Idx → EReal)
    (b2 : Cert.Sage.SB.Idx → EReal) (Wr2 : Cert.Sage.SW.Idx → EReal) :
    Cert.Sage.kLayer
        (Cert.Sage.relu (Cert.Sage.kLayer x (Cert.KernelIdeal.Stages.agg e x) (Cert.KernelIdeal.Stages.inv e) Wl1
          (Cert.KernelIdeal.Stages.biasRow b1) Wr1))
        (Cert.KernelIdeal.Stages.agg e (Cert.Sage.relu (Cert.Sage.kLayer x (Cert.KernelIdeal.Stages.agg e x)
          (Cert.KernelIdeal.Stages.inv e) Wl1 (Cert.KernelIdeal.Stages.biasRow b1) Wr1)))
        (Cert.KernelIdeal.Stages.inv e) Wl2 (Cert.KernelIdeal.Stages.biasRow b2) Wr2
      = Cert.Sage.rLayer
          (Cert.Sage.relu (Cert.Sage.rLayer x (Cert.ReferenceIdeal.RefValue.agg e x) (Cert.ReferenceIdeal.RefValue.dn e) Wl1 b1 Wr1))
          (Cert.ReferenceIdeal.RefValue.agg e (Cert.Sage.relu (Cert.Sage.rLayer x (Cert.ReferenceIdeal.RefValue.agg e x)
            (Cert.ReferenceIdeal.RefValue.dn e) Wl1 b1 Wr1)))
          (Cert.ReferenceIdeal.RefValue.dn e) Wl2 b2 Wr2 := by
  rw [layers_agree e x Wl1 b1 Wr1, layers_agree]

end Cert.Bridge

end
-- ==== Proof.lean ====
/-
  Two graph-convolution layers with mean aggregation: a Pallas kernel per layer against a plain reference.

  Each layer maps node features y to  mean-of-neighbours(y) · W_l + b + y · W_r,  where the mean at a node divides the
  sum of the features of the nodes with an edge into it by the clamped number of such edges, max(count, 1); the first
  layer is followed by a rectifier.  The kernel program computes the neighbour sums and the reciprocal clamped counts
  on the host, then runs one call per layer that scales the sums, takes the two products and adds the bias, block of
  5000 rows by block; it keeps the hidden features in a narrower float format, which over the extended reals is the
  identity.  The reference divides instead of multiplying by the reciprocal, adds the bias before the root product
  instead of after, and counts in reals instead of in integers.

  The three frames are the generated ones (the reference's is its run with the result dropped).  The ideal pass
  rewrote nothing, so there is nothing to preserve.  For the value: the kernel program's run is read off its frame,
  each call's output array being one function of the arrays the call finds (the layer in the kernel's arrangement), and
  the reference's run is its generated one, read one operation at a time; the two result terms are equal because the
  neighbour sums are the same term on both sides, the two counts are the same natural number below 2^31, dividing by
  a nonzero real is multiplying by its reciprocal at every extended real, and the three summands of a layer are only
  reordered.  The precondition is not needed for any of this.
-/
import proofs.«410629_j36464272343628_3_alg».proof.Defs
import proofs.«410629_j36464272343628_3_alg».proof.Proof.Gen.Kernel
import proofs.«410629_j36464272343628_3_alg».proof.Proof.Gen.Kernel.Skeleton
import proofs.«410629_j36464272343628_3_alg».proof.Proof.Gen.Kernel.Launch
import proofs.«410629_j36464272343628_3_alg».proof.Proof.Gen.Kernel.Points
import proofs.«410629_j36464272343628_3_alg».proof.Proof.Gen.Kernel.Frame
import proofs.«410629_j36464272343628_3_alg».proof.Proof.Gen.KernelIdeal
import proofs.«410629_j36464272343628_3_alg».proof.Proof.Gen.KernelIdeal.Skeleton
import proofs.«410629_j36464272343628_3_alg».proof.Proof.Gen.KernelIdeal.Launch
import proofs.«410629_j36464272343628_3_alg».proof.Proof.Gen.KernelIdeal.Points
import proofs.«410629_j36464272343628_3_alg».proof.Proof.Gen.KernelIdeal.Frame
import proofs.«410629_j36464272343628_3_alg».proof.Proof.Gen.ReferenceIdeal
import proofs.«410629_j36464272343628_3_alg».proof.Proof.Gen.Pre_finite_inputs
import proofs.«410629_j36464272343628_3_alg».proof.Proof.Gen.ReferenceIdeal.Run
import proofs.«410629_j36464272343628_3_alg».proof.Proof.Gen.ReferenceIdeal.Read
import proofs.«410629_j36464272343628_3_alg».proof.Proof.KernelRun
import proofs.«410629_j36464272343628_3_alg».proof.Proof.KernelStages
import proofs.«410629_j36464272343628_3_alg».proof.Proof.RefValue
import proofs.«410629_j36464272343628_3_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel program's is
    the second layer in the kernel's arrangement over the rectified first, the reference's the same composition in
    its own arrangement, and the two terms are equal. -/
theorem algebraic : Cert.algebraic_KernelIdeal_ReferenceIdeal := by
  intro m ρ m' ρ' _ hagree
  refine ⟨fun c => Cert.KernelIdeal.Gen.W4 m ρ c (Proc.devRef .tc Cert.KernelIdeal.main_v38),
    Cert.KernelIdeal.Gen.Result.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v54_eq, a0, a1, a2, a3, a4, a5, a6, a7,
    Cert.ReferenceIdeal.RefValue.ref_value]
  refine Eq.trans ?_ (Cert.KernelIdeal.Stages.result_value m ρ c).symm
  exact (Cert.Bridge.values_agree _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
